-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S128x256 : Shape := ⟨2, ![128, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8192x256 .f32) (main_arg1 : IVec S8192 32) (main_arg2 : FVec F S128x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg1 main_v9
  let main_c_3 : IVec S_ 1 := constantI S_ 1 1#1
  let main_v11 : IVec S_ 1 := (fun x v => Host.reduce IntOp.andi x v reducesTo_S8192_S_d0 h_S_) main_v10 main_c_3
  let main_v12 : IVec S_ 1 := andi main_v8 main_v11
  let main_c_4 : IVec S_ 32 := constantI S_ 32 128#32
  let main_v13 : IVec S8192 32 := broadcastInDim S8192 ![] bcast_S_S8192 main_c_4
  let main_v14 : IVec S8192 1 := cmpi .slt main_arg1 main_v13
  let main_c_5 : IVec S_ 1 := constantI S_ 1 1#1
  let main_v15 : IVec S_ 1 := (fun x v => Host.reduce IntOp.andi x v reducesTo_S8192_S_d0 h_S_) main_v14 main_c_5
  fn_part1 (F := F) main_v12 main_v15
-- ==== Kernel.lean ====
abbrev S8192x256 : Shape := ⟨2, ![8192, 256]⟩
abbrev S8192 : Shape := ⟨1, ![8192]⟩
abbrev S128x256 : Shape := ⟨2, ![128, 256]⟩
abbrev S8192x1 : Shape := ⟨2, ![8192, 1]⟩
abbrev S16x128 : Shape := ⟨2, ![16, 128]⟩
abbrev S2048x256 : Shape := ⟨2, ![2048, 256]⟩
abbrev S2048x1 : Shape := ⟨2, ![2048, 1]⟩
abbrev S8x128 : Shape := ⟨2, ![8, 128]⟩
abbrev S1x1 : Shape := ⟨2, ![1, 1]⟩
abbrev S2048 : Shape := ⟨1, ![2048]⟩
abbrev S128 : Shape := ⟨1, ![128]⟩
abbrev S1x128 : Shape := ⟨2, ![1, 128]⟩
abbrev S256x128 : Shape := ⟨2, ![256, 128]⟩
abbrev S2048x128 : Shape := ⟨2, ![2048, 128]⟩
abbrev S1 : Shape := ⟨1, ![1]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S128x256, .f32⟩
  | .hbm, ⟨3, _⟩ => ⟨S8192x1, .i32⟩
  | .hbm, ⟨4, _⟩ => ⟨S16x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S128x256, .f32⟩
  | .local _ .vmem, ⟨3, _⟩ => ⟨S2048x1, .i32⟩
  | .local _ .vmem, ⟨4, _⟩ => ⟨S2048x1, .i32⟩
  | .local _ .vmem, ⟨5, _⟩ => ⟨S8x128, .f32⟩
  | .local _ .vmem, ⟨6, _⟩ => ⟨S8x128, .f32⟩
  | .local _ .vmem, ⟨7, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v47 : BitVec 1 := Scalar.cmpi .eq arg1 c1_i32
  let v48 : BitVec 32 := Scalar.extui v47
  let c0_i32_19 : BitVec 32 := 0#32
  let v49 : BitVec 1 := Scalar.cmpi .ne v48 c0_i32_19
  v49

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8192_S8192x1 : S8192.ShapeCasts S8192x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x256_S2048x256_0_0 : ∀ a, (![0, 0] : Fin 2 → Nat) a + S2048x256.size a ≤ S2048x256.size a
  h_S2048x256 : 0 < S2048x256.numel
  inb_S128x256_S128x256_0_0 : ∀ a, (![0, 0] : Fin 2 → Nat) a + S128x256.size a ≤ S128x256.size a
  h_S128x256 : 0 < S128x256.numel
  reduces_S2048x256_S2048 : S2048x256.Reduces [1] S2048
  shapeCasts_S2048_S2048x1 : S2048.ShapeCasts S2048x1
  reduces_S128x256_S128 : S128x256.Reduces [1] S128
  shapeCasts_S128_S1x128 : S128.ShapeCasts S1x128
  bitsLt_bf16_f32 : FTy.bits .bf16 < FTy.bits .f32
  transposes_S128x256_p1_0_S256x128 : S128x256.Transposes [1, 0] S256x128
  broadcasts_S2048x1_S2048x128 : S2048x1.Broadcasts S2048x128
  broadcasts_S1x128_S2048x128 : S1x128.Broadcasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x128_d1_w32 : S2048x128.Iotas .tc 32 [1]
  reduces_S2048x128_S2048 : S2048x128.Reduces [1] S2048
  reduces_S2048x1_S1 : S2048x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .i32 = 32 ∨ (Rect.block (s := S8192x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S128x256 : Shape := ⟨2, ![128, 256]⟩
abbrev S_ : Shape := ⟨0, ![]⟩
abbrev S8192x1 : Shape := ⟨2, ![8192, 1]⟩
abbrev S128 : Shape := ⟨1, ![128]⟩
abbrev S8192x128 : Shape := ⟨2, ![8192, 128]⟩
abbrev S1x128 : Shape := ⟨2, ![1, 128]⟩
abbrev S8192x2 : Shape := ⟨2, ![8192, 2]⟩

abbrev nBuf : Space → Nat
  | .hbm => 67
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S128x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S128x256, .f32⟩
  | .hbm, ⟨8, _⟩ => ⟨S_, .f32⟩
  | .hbm, ⟨9, _⟩ => ⟨S128, .f32⟩
  | .hbm, ⟨10, _⟩ => ⟨S8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S1x128, .f32⟩
  | .hbm, ⟨17, _⟩ => ⟨S8192x128, .f32⟩
  | .hbm, ⟨18, _⟩ => ⟨S8192x128, .f32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S8192x1, .i32⟩
  | .hbm, ⟨36, _⟩ => ⟨S8192x2, .i32⟩
  | .hbm, ⟨37, _⟩ => ⟨S8192, .f32⟩
  | .hbm, ⟨38, _⟩ => ⟨S8192x1, .i32⟩
  | .hbm, ⟨39, _⟩ => ⟨S1x128, .i32⟩
  | .hbm, ⟨40, _⟩ => ⟨S8192x128, .i32⟩
  | .hbm, ⟨41, _⟩ => ⟨S8192x128, .i32⟩
  | .hbm, ⟨42, _⟩ => ⟨S8192x128, .i1⟩
  | .hbm, ⟨43, _⟩ => ⟨S_, .f32⟩
  | .hbm, ⟨44, _⟩ => ⟨S_, .f32⟩
  | .hbm, ⟨45, _⟩ => ⟨S8192x128, .f32⟩
  | .hbm, ⟨46, _⟩ => ⟨S8192x128, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_v28 : Ref sig .tc := ⟨.hbm, 42, rfl⟩
abbrev main_cst_5 : Ref sig .tc := ⟨.hbm, 43, rfl⟩
abbrev main_call1_v0 : Ref sig .tc := ⟨.hbm, 44, rfl⟩
abbrev main_call1_v1 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  reducesTo_S128x256_S128_d1 : S128x256.ReducesTo [1] S128
  bcast_S_S8192x128 : S_.BroadcastsInDim S8192x128 (![] : Fin 0 → Fin S8192x128.rank)
  bcast_S8192x1_S8192x128_0_1 : S8192x1.BroadcastsInDim S8192x128 (![0, 1] : Fin 2 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192 : S_.BroadcastsInDim S8192 (![] : Fin 0 → Fin S8192.rank)
  concatenates_S8192x1_S8192x1_S8192x2_d1 : Shape.Concatenates [S8192x1, S8192x1] S8192x2 1
  reducesTo_S8192x128_S8192_d1 : S8192x128.ReducesTo [1] S8192
  reducesTo_S8192_S_d0 : S8192.ReducesTo [0] S_
  dot_S8192x256_S128x256_S8192x128_1_1_0_0_n_n_wf : DotDims.WF S8192x256 S128x256 S8192x128 [1] [1] [0] [0] [] []
  gather_S8192x128_S8192x2_S8192_n_01_n_n_01_1_11_wf : GatherDims.WF S8192x128 S8192x2 S8192 [] [0, 1] [] [0, 1] [] 1 ![1, 1]

variable [Facts₀]

def dot_S8192x256_S128x256_S8192x128_1_1_0_0_n_n : DotDims S8192x256 S128x256 S8192x128 where
  lhsContracting := [1]
  rhsContracting := [1]
  lhsNonContracting := [0]
  rhsNonContracting := [0]
  lhsBatch := []
  rhsBatch := []
  wf := dot_S8192x256_S128x256_S8192x128_1_1_0_0_n_n_wf
def gather_S8192x128_S8192x2_S8192_n_01_n_n_01_1_11 : GatherDims S8192x128 S8192x2 S8192 where
  offsetDims := []
  collapsedSliceDims := [0, 1]
  operandBatchingDims := []
  startIndicesBatchingDims := []
  startIndexMap := [0, 1]
  indexVectorDim := 1
  sliceSizes := ![1, 1]
  wf := gather_S8192x128_S8192x2_S8192_n_01_n_n_01_1_11_wf

class Facts : Prop extends Facts₀ where

variable [Facts]
-- ==== Proof.KernelPieces.lean ====
/-
  What one grid point leaves behind, read as values.  The kernel walks four tiles of 2048 rows, two per core; each
  point computes the tile's column of per-row losses, sums it, and adds the sum into a one-cell scratch that the
  first point of a core's pair resets to zero.  The second point of the pair also broadcasts the cell over the core's
  8 x 128 output block.  Here each of those three stores is read back as a pure term of the point's three input
  blocks (and, where it accumulates, of the cell's previous contents).
-/
import proofs.«406086_j51745765982761_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At a point that opens a core's run the scratch cell ends holding the tile's column sum added to the zero just
    stored: the reset is read back by the update, which covers it. -/
theorem scratch_A (c : Dev nD) (i : grid0.Coords) (a2 : Memref sig .tc .vmem S2048x256 .f32) (h2 : a2.IsWhole)
    (a3 : Memref sig .tc .vmem S128x256 .f32) (h3 : a3.IsWhole) (a4 : Memref sig .tc .vmem S2048x1 .i32) (h4 : a4.IsWhole)
    (a5 : Memref sig .tc .vmem S8x128 .f32) (h5 : a5.IsWhole) (a6 : Memref sig .tc .vmem S1x1 .f32) (h6 : a6.IsWhole)
    (hc0 : cond0_0 i) (hc1 : ¬cond0_1 i) (x0 : Vec F S2048x256 .f32) (x1 : Vec F S128x256 .f32) (x2 : Vec F S2048x1 .i32) :
    sout0_A_0 c i a2 h2 a3 h3 a4 h4 a5 h5 a6 h6 hc0 hc1 x0 x1 x2 = k0_pay1 (k0_pay4 x0 x1 x2) (k0_pay3 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h6.read_unread,
    View.ld_unit_zero (S := S2048x256) hz, View.ld_unit_zero (S := S128x256) hz, View.ld_unit_zero (S := S2048x1) hz,
    View.ld_unit_zero (S := S1x1) hz]

/-- At a point that closes a core's run the scratch cell ends holding the tile's column sum added to what the point
    before left there. -/
theorem scratch_B (c : Dev nD) (i : grid0.Coords) (a2 : Memref sig .tc .vmem S2048x256 .f32) (h2 : a2.IsWhole)
    (a3 : Memref sig .tc .vmem S128x256 .f32) (h3 : a3.IsWhole) (a4 : Memref sig .tc .vmem S2048x1 .i32) (h4 : a4.IsWhole)
    (a5 : Memref sig .tc .vmem S8x128 .f32) (h5 : a5.IsWhole) (a6 : Memref sig .tc .vmem S1x1 .f32) (h6 : a6.IsWhole)
    (hc0 : ¬cond0_0 i) (hc1 : cond0_1 i) (x0 : Vec F S2048x256 .f32) (x1 : Vec F S128x256 .f32) (x2 : Vec F S2048x1 .i32) (xs : Vec F S1x1 .f32) :
    sout0_B_0 c i a2 h2 a3 h3 a4 h4 a5 h5 a6 h6 hc0 hc1 x0 x1 x2 xs = k0_pay1 (k0_pay4 x0 x1 x2) xs := by
  unfold sout0_B_0
  rw [View.read_writes_eq_canon _ _ _ (scover0_B_0 c i a2 h2 a3 h3 a4 h4 a5 h5 a6 h6 hc0 hc1 x0 x1 x2 xs)]
  unfold kernelRun0_B
  dsimp only
  sl_unfold_words
  rw [View.canon_unit_zero hz]
  simp only [View.readAt_eq_ld, h2.read_unread, h3.read_unread, h4.read_unread, h6.read_unread,
    View.ld_unit_zero (S := S2048x256) hz, View.ld_unit_zero (S := S128x256) hz, View.ld_unit_zero (S := S2048x1) hz,
    View.ld_unit_zero (S := S1x1) hz]

/-- and the output block is that cell's new value, broadcast over the block. -/
theorem out_B (c : Dev nD) (i : grid0.Coords) (a2 : Memref sig .tc .vmem S2048x256 .f32) (h2 : a2.IsWhole)
    (a3 : Memref sig .tc .vmem S128x256 .f32) (h3 : a3.IsWhole) (a4 : Memref sig .tc .vmem S2048x1 .i32) (h4 : a4.IsWhole)
    (a5 : Memref sig .tc .vmem S8x128 .f32) (h5 : a5.IsWhole) (a6 : Memref sig .tc .vmem S1x1 .f32) (h6 : a6.IsWhole)
    (hc0 : ¬cond0_0 i) (hc1 : cond0_1 i) (x0 : Vec F S2048x256 .f32) (x1 : Vec F S128x256 .f32) (x2 : Vec F S2048x1 .i32) (xs : Vec F S1x1 .f32) :
    out0_B_3 c i a2 h2 a3 h3 a4 h4 a5 h5 a6 h6 hc0 hc1 x0 x1 x2 xs = k0_pay2 (k0_pay1 (k0_pay4 x0 x1 x2) xs) := by
  unfold out0_B_3
  rw [View.read_writes_eq_canon _ _ _ (cover0_B_3 c i a2 h2 a3 h3 a4 h4 a5 h5 a6 h6 hc0 hc1 x0 x1 x2 xs)]
  unfold kernelRun0_B
  dsimp only
  sl_unfold_words
  rw [View.canon_unit_zero hz]
  simp only [View.readAt_eq_ld, h2.read_unread, h3.read_unread, h4.read_unread, h6.read_unread,
    View.ld_unit_zero (S := S2048x256) hz, View.ld_unit_zero (S := S128x256) hz, View.ld_unit_zero (S := S2048x1) hz,
    View.ld_unit_zero (S := S1x1) hz, View.readCov_unit_zero (S := S1x1) _ hz]

end Cert.KernelIdeal.Pieces
end
-- ==== Proof.KernelValue.lean ====
/-
  The kernel's value, read off its frame run.

  The grid has four points, two per core: points 0 and 1 are core 0's tiles 0 and 1, points 2 and 3 core 1's tiles 2
  and 3.  An even point resets the one-cell scratch to zero and adds its tile's column sum; an odd point adds its
  tile's column sum to what the even point left and broadcasts the cell over the core's 8 x 128 output block, which is
  written back there and only there.  So the 16 x 128 result array of the call holds core 0's total in rows 0..7 and core
  1's in rows 8..15, and the host lines after the call add entry (0,0) to entry (8,0) and divide by 8192.  The tiles'
  blocks are rows `2048·t + r` of the argument arrays (the labels through the host's cast to a column).
-/
import proofs.«406086_j51745765982761_2_alg».proof.Proof.KernelPieces
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Glvq

open Cert.KernelIdeal Cert.KernelIdeal.Gen Cert.KernelIdeal.Pieces

variable {F : FTy → Type} [FloatOps F]
variable (m : (ℓ : Loc nD τ sig) → Buf (Elt F) ℓ) (ρ : Dev nD → PrngReg)

/-- The column of per-row losses of the tile the grid visits at point `t`: the body's pure term of the point's blocks
    of `x`, the prototypes and the labels. -/
abbrev tileCol (c : Dev nD) (t : Fin cfg0.N) : FVec F S2048x1 .f32 :=
  k0_pay4 (iblk m c 0 t) (iblk m c 1 t) (iblk m c 2 t)

/-- After an even point the scratch cell holds zero plus that tile's column sum. -/
theorem cell_even (c : Dev nD) (t : Fin cfg0.N) (h0 : t.val % 2 = 0) (h1 : ¬t.val % 2 = 1) :
    (outsAt0 m c t.val t.isLt).2 = k0_pay1 (tileCol m c t) (k0_pay3 (F := F)) := by
  rw [outsAt0_A m c t h0 h1]
  dsimp only
  exact scratch_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- After an odd point it holds the tile's column sum added to what the point before left. -/
theorem cell_odd (c : Dev nD) (t : Fin cfg0.N) (h0 : ¬t.val % 2 = 0) (h1 : t.val % 2 = 1) :
    (outsAt0 m c t.val t.isLt).2
      = k0_pay1 (tileCol m c t) (outsAt0 m c (t.val - 1) (Nat.lt_of_le_of_lt (Nat.sub_le _ _) t.isLt)).2 := by
  rw [outsAt0_B m c t h0 h1]
  dsimp only
  exact scratch_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

/-- and the output block is that new cell value broadcast. -/
theorem block_odd (c : Dev nD) (t : Fin cfg0.N) (h0 : ¬t.val % 2 = 0) (h1 : t.val % 2 = 1) :
    (outsAt0 m c t.val t.isLt).1
      = k0_pay2 (k0_pay1 (tileCol m c t) (outsAt0 m c (t.val - 1) (Nat.lt_of_le_of_lt (Nat.sub_le _ _) t.isLt)).2) := by
  rw [outsAt0_B m c t h0 h1]
  dsimp only
  exact out_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

/-- Core 0's total: tiles 0 and 1 summed into the cell, in that order from zero; core 1's: tiles 2 and 3. -/
abbrev total0 (c : Dev nD) : FVec F S1x1 .f32 := k0_pay1 (tileCol m c t0_1) (k0_pay1 (tileCol m c t0_0) (k0_pay3 (F := F)))
abbrev total1 (c : Dev nD) : FVec F S1x1 .f32 := k0_pay1 (tileCol m c t0_3) (k0_pay1 (tileCol m c t0_2) (k0_pay3 (F := F)))

theorem block_t1 (c : Dev nD) : (outsAt0 m c t0_1.val t0_1.isLt).1 = k0_pay2 (total0 m c) := by
  rw [block_odd m c t0_1 (by decide) (by decide)]
  exact congrArg (fun s => k0_pay2 (k0_pay1 (tileCol m c t0_1) s)) (cell_even m c t0_0 (by decide) (by decide))

theorem block_t3 (c : Dev nD) : (outsAt0 m c t0_3.val t0_3.isLt).1 = k0_pay2 (total1 m c) := by
  rw [block_odd m c t0_3 (by decide) (by decide)]
  exact congrArg (fun s => k0_pay2 (k0_pay1 (tileCol m c t0_3) s)) (cell_even m c t0_2 (by decide) (by decide))

/-- The broadcast store's payload reads the cell at every index of the block. -/
theorem pay2_apply (s : Vec F S1x1 .f32) (z : S8x128.Idx) : k0_pay2 s z = s (ix2 (0 : Fin 1) (0 : Fin 1)) := by
  unfold k0_pay2
  rw [shapeCast_self]
  refine broadcastTo_apply s broadcasts_S1x1_S8x128 z (ix2 (0 : Fin 1) (0 : Fin 1)) fun ax => ?_
  match ax with
  | ⟨0, _⟩ => rfl
  | ⟨1, _⟩ => rfl

/-- The 16 x 128 result array of the call as ONE function: rows 0..7 hold core 0's total, rows 8..15 core 1's. -/
def outArr (c : Dev nD) : Vec F S16x128 .f32 :=
  fun i => if (i 0).val < 8 then total0 m c (ix2 (0 : Fin 1) (0 : Fin 1)) else total1 m c (ix2 (0 : Fin 1) (0 : Fin 1))

/-- What the two write-backs (after points 1 and 3) write are the two 8-row blocks of that function. -/
theorem flushed_eq (c : Dev nD) (t : Fin cfg0.N) (hf : (cfg0.win 3).flush t = true) :
    (dats m 0 c).flushed 3 t = ((cfg0.win 3).blk t).view.read (Elt F) (outArr m c) := by
  have h1 : t.val % 2 = 1 := (flush0_3 t).mp hf
  rcases fin_N0 t with rfl | rfl | rfl | rfl
  · exact absurd h1 (by decide)
  · show (cfg0.win 3).cut (grid0.coords t0_1) ((dats m 0 c).after 3 t0_1) = _
    rw [after0_3, block_t1]
    funext y
    rw [View.read_apply]
    have hy : (y 0).val < 8 := lt_of_lt_of_eq (y 0).isLt (by decide +kernel)
    have e0 : ((((cfg0.win 3).blk t0_1).view.emb y) 0).val < 8 := by
      show win0_3.index t0_1 0 * 8 + 1 * (y 0).val < 8
      rw [show win0_3.index t0_1 0 = 0 from by decide +kernel]; omega
    show k0_pay2 (total0 m c) _ = outArr m c (((cfg0.win 3).blk t0_1).view.emb y)
    unfold outArr
    rw [if_pos e0]
    exact pay2_apply _ _
  · exact absurd h1 (by decide)
  · show (cfg0.win 3).cut (grid0.coords t0_3) ((dats m 0 c).after 3 t0_3) = _
    rw [after0_3, block_t3]
    funext y
    rw [View.read_apply]
    have e0 : ¬((((cfg0.win 3).blk t0_3).view.emb y) 0).val < 8 := by
      show ¬win0_3.index t0_3 0 * 8 + 1 * (y 0).val < 8
      rw [show win0_3.index t0_3 0 = 1 from by decide +kernel]; omega
    show k0_pay2 (total1 m c) _ = outArr m c (((cfg0.win 3).blk t0_3).view.emb y)
    unfold outArr
    rw [if_neg e0]
    exact pay2_apply _ _

/-- Every index of the array lies in one of those two blocks, so after the call the array IS that function. -/
theorem final_out (c : Dev nD) : (dats m 0 c).arrAt 3 cfg0.N = outArr m c :=
  (dats m 0 c).arrAt_eq_of_cover 3 (outArr m c) (flushed_eq m c) fun i => by
    have h1 : (i 1 : Nat) < 128 := (i 1).isLt
    have h0 : (i 0 : Nat) < 16 := (i 0).isLt
    by_cases hlt : (i 0 : Nat) < 8
    · refine ⟨t0_1, (flush0_3 t0_1).mpr (by decide), ?_⟩
      show i ∈ ((View.whole main_v1).slice (win0_3.rect t0_1)).set
      rw [View.set_slice_whole, Rect.mem_set_unit]
      intro a
      match a with
      | ⟨0, _⟩ => show win0_3.index t0_1 0 * win0_3.size 0 ≤ (i 0 : Nat) ∧ (i 0 : Nat) < win0_3.index t0_1 0 * win0_3.size 0 + win0_3.xsize (grid0.coords t0_1) 0
                  rw [show win0_3.index t0_1 0 * win0_3.size 0 = 0 from by decide +kernel, show win0_3.xsize (grid0.coords t0_1) 0 = 8 from by decide +kernel]; omega
      | ⟨1, _⟩ => show win0_3.index t0_1 1 * win0_3.size 1 ≤ (i 1 : Nat) ∧ (i 1 : Nat) < win0_3.index t0_1 1 * win0_3.size 1 + win0_3.xsize (grid0.coords t0_1) 1
                  rw [show win0_3.index t0_1 1 * win0_3.size 1 = 0 from by decide +kernel, show win0_3.xsize (grid0.coords t0_1) 1 = 128 from by decide +kernel]; omega
    · refine ⟨t0_3, (flush0_3 t0_3).mpr (by decide), ?_⟩
      show i ∈ ((View.whole main_v1).slice (win0_3.rect t0_3)).set
      rw [View.set_slice_whole, Rect.mem_set_unit]
      intro a
      match a with
      | ⟨0, _⟩ => show win0_3.index t0_3 0 * win0_3.size 0 ≤ (i 0 : Nat) ∧ (i 0 : Nat) < win0_3.index t0_3 0 * win0_3.size 0 + win0_3.xsize (grid0.coords t0_3) 0
                  rw [show win0_3.index t0_3 0 * win0_3.size 0 = 8 from by decide +kernel, show win0_3.xsize (grid0.coords t0_3) 0 = 8 from by decide +kernel]; omega
      | ⟨1, _⟩ => show win0_3.index t0_3 1 * win0_3.size 1 ≤ (i 1 : Nat) ∧ (i 1 : Nat) < win0_3.index t0_3 1 * win0_3.size 1 + win0_3.xsize (grid0.coords t0_3) 1
                  rw [show win0_3.index t0_3 1 * win0_3.size 1 = 0 from by decide +kernel, show win0_3.xsize (grid0.coords t0_3) 1 = 128 from by decide +kernel]; omega

/-- The host lines after the call, as one function of the call's result array: entry (0,0) plus entry (8,0), divided by
    the word 8192.0. -/
def tailOf (X : Vec F S16x128 .f32) : Vec F S_ .f32 :=
  Host.divf (F := F)
    (addf (shapeCast S_ (extractStridedSlice S1x1 ![0, 0] X slices_S16x128_S1x1_0_0) shapeCasts_S1x1_S_)
      (shapeCast S_ (extractStridedSlice S1x1 ![8, 0] X slices_S16x128_S1x1_8_0) shapeCasts_S1x1_S_))
    (constant (F := F) S_ .f32 0x46000000#32)

theorem tail_eq (c : Dev nD) :
    Pipeline.afterTail₀ cfgs (dats m) 0 (V0 m) [hostOps1] c main_v7 = tailOf (outArr m c) := by
  unfold Pipeline.afterTail₀
  show StableHlo.after hostOps1 _ (Proc.devRef .tc main_v7) = _
  after_results
  have hw : Pipeline.withArrays (cfgs 0).spec c (V0 m c) (fun w => (dats m 0 c).arrAt w (cfgs 0).N)
      (Proc.devRef .tc main_v1) = outArr m c :=
    (Pipeline.withArrays_arr spec0 launch0.win.arr_inj c _ _ 3).trans (final_out m c)
  rw [hw]
  rfl

/-- THE RUN, READ: every weakly fair execution ends with the program's result at the tail of that array, and the three
    argument arrays as they were. -/
theorem run : θ_run defs (onTc (τ := τ) (main (F := F))) ⟨m, fun _ => 0, ρ⟩ fun r => ∀ c : Dev nD,
      r.2.mem ((c.tc : Thread nD τ).loc main_v7) = tailOf (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

/-! ## The tiles' blocks are rows of the argument arrays -/

/-- The index maps, decided over the four points: the tile of `x` and of the labels at point `t` is block `t`, the
    prototypes' block is always the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of the tile of `x` at point `t` is row `2048·t + r` of `x`. -/
theorem xblk_apply (c : Dev nD) (t : Fin cfg0.N) (r : Fin 2048) (k : Fin 256)
    (hr : 2048 * t.val + r.val < 8192) :
    (iblk m c 0 t : Vec F S2048x256 .f32) (ix2 r k)
      = m ((c.tc : Thread nD τ).loc main_arg0) (ix2 (⟨2048 * t.val + r.val, hr⟩ : Fin 8192) k) := by
  obtain ⟨h0, h1, -, -, -, -⟩ := idx_facts t
  unfold iblk
  rw [View.read_apply]
  show V m c main_arg0 _ = _
  rw [V_main_arg0]
  congr 1
  funext a
  apply Fin.ext
  match a with
  | ⟨0, _⟩ => show win0_0.index t 0 * 2048 + 1 * r.val = 2048 * t.val + r.val; rw [h0]; omega
  | ⟨1, _⟩ => show win0_0.index t 1 * 256 + 1 * k.val = k.val; rw [h1]; omega

/-- The prototypes' block is the prototypes. -/
theorem pblk_apply (c : Dev nD) (t : Fin cfg0.N) (p : Fin 128) (k : Fin 256) :
    (iblk m c 1 t : Vec F S128x256 .f32) (ix2 p k) = m ((c.tc : Thread nD τ).loc main_arg2) (ix2 p k) := by
  obtain ⟨-, -, h0, h1, -, -⟩ := idx_facts t
  unfold iblk
  rw [View.read_apply]
  show V m c main_arg2 _ = _
  rw [V_main_arg2]
  congr 1
  funext a
  apply Fin.ext
  match a with
  | ⟨0, _⟩ => show win0_1.index t 0 * 128 + 1 * p.val = p.val; rw [h0]; omega
  | ⟨1, _⟩ => show win0_1.index t 1 * 256 + 1 * k.val = k.val; rw [h1]; omega

/-- The labels reach the call as a column: the one host line before it casts the 8192 labels to 8192 x 1. -/
theorem V_labels (c : Dev nD) :
    (V m c main_v0 : Vec F S8192x1 .i32) = shapeCast S8192x1 (m ((c.tc : Thread nD τ).loc main_arg1)) shapeCasts_S8192_S8192x1 := by
  show StableHlo.after hostOps0 (fun b => m (c, b)) (Proc.devRef .tc main_v0) = _
  after_results
  rfl

/-- Row `r` of the tile of labels at point `t` is label `2048·t + r`. -/
theorem yblk_apply (c : Dev nD) (t : Fin cfg0.N) (r : Fin 2048) (hr : 2048 * t.val + r.val < 8192) :
    (iblk m c 2 t : Vec F S2048x1 .i32) (ix2 r (0 : Fin 1))
      = m ((c.tc : Thread nD τ).loc main_arg1) (ix1 (⟨2048 * t.val + r.val, hr⟩ : Fin 8192)) := by
  obtain ⟨-, -, -, -, h0, h1⟩ := idx_facts t
  unfold iblk
  rw [View.read_apply]
  show V m c main_v0 _ = _
  rw [V_labels]
  refine shapeCast_apply _ _ _ _ ?_
  show (S8192.rowMajor (ix1 (⟨2048 * t.val + r.val, hr⟩ : Fin 8192))).val
    = (S8192x1.rowMajor (((cfg0.win 2).blk t).view.emb (ix2 r (0 : Fin 1)))).val
  rw [Shape.rowMajor_val_two, Shape.rowMajor_val_one]
  show 2048 * t.val + r.val = (win0_2.index t 0 * 2048 + 1 * r.val) * 1 + (win0_2.index t 1 * 1 + 1 * 0)
  rw [h0, h1]; omega

end Cert.KernelIdeal.Glvq
end
-- ==== Proof.Spec.lean ====
/-
  The loss of one row, and two laws about it, over the extended reals.

  For a row `a` (256 entries), a label word `y` and 128 prototypes `P j`, the squared distance to prototype `j` is
  `(|a|² − 2·⟨a, P j⟩) + |P j|²`.  The distance to the labelled prototype is taken as a masked sum (every entry of the
  row of distances replaced by zero except where the lane number equals the label), the distance to the nearest other
  prototype as the minimum with the labelled lane replaced by +∞, and the row's loss is the logistic function of
  `−(d₊ − d₋)/(d₊ + d₋)`.  When the label is a lane number (below 128) the masked sum is the one entry at that lane; and a
  sum over 8192 rows is the sum over 4 tiles of 2048 rows.
-/
import Idealize.ShloMosaic.Lib.ValueIdx
import Idealize.ShloMosaic.PureOps.Ideal.Laws

noncomputable section

namespace Cert.Glvq

open Idealize.ShloMosaic

/-- The squared norm of a row. -/
def sqn (a : Fin 256 → EReal) : EReal := ∑ k : Fin 256, a k * a k

/-- The squared distance from a row to prototype `j`, expanded: `(|a|² − 2·⟨a, P j⟩) + |P j|²`. -/
def dist (a : Fin 256 → EReal) (P : Fin 128 → Fin 256 → EReal) (j : Fin 128) : EReal :=
  (sqn a - Ideal.ofBits .f32 0x40000000#32 * ∑ k : Fin 256, a k * P j k) + sqn (P j)

/-- Whether lane `j` is the labelled one, as the one-bit word of the comparison. -/
def hit (y : BitVec 32) (j : Fin 128) : BitVec 1 := IntOp.cmpi .eq (BitVec.ofNat 32 j.val) y

/-- The distance to the labelled prototype, as a masked sum over the lanes. -/
def own (a : Fin 256 → EReal) (y : BitVec 32) (P : Fin 128 → Fin 256 → EReal) : EReal :=
  ∑ j : Fin 128, Scalar.select (hit y j) (dist a P j) (Ideal.ofBits .f32 0x00000000#32)

/-- The distance to the nearest other prototype: the minimum over the lanes with the labelled lane at +∞. -/
def other (a : Fin 256 → EReal) (y : BitVec 32) (P : Fin 128 → Fin 256 → EReal) : EReal :=
  (Finset.univ : Finset (Fin 128)).fold (FloatOps.minimumf (F := Ideal) (φ := .f32)) (Ideal.ofBits .f32 0x7F800000#32)
    (fun j => Scalar.select (hit y j) (Ideal.ofBits .f32 0x7F800000#32) (dist a P j))

/-- The row's loss. -/
def rowLoss (a : Fin 256 → EReal) (y : BitVec 32) (P : Fin 128 → Fin 256 → EReal) : EReal :=
  Ideal.logistic (Ideal.ofBits .f32 0xBF800000#32 * Ideal.div (own a y P - other a y P) (own a y P + other a y P))

/-- Lane `j` is hit exactly when its number is the label's value. -/
theorem hit_eq_one_iff (y : BitVec 32) (j : Fin 128) : hit y j = 1#1 ↔ j.val = y.toNat := by
  have hj : j.val < 2 ^ 32 := lt_trans j.isLt (by norm_num)
  have key : BitVec.ofNat 32 j.val = y ↔ j.val = y.toNat := by
    constructor
    · intro h
      have e := congrArg BitVec.toNat h
      rwa [BitVec.toNat_ofNat, Nat.mod_eq_of_lt hj] at e
    · intro h
      apply BitVec.eq_of_toNat_eq
      rw [BitVec.toNat_ofNat, Nat.mod_eq_of_lt hj, h]
  show BitVec.ofBool (BitVec.ofNat 32 j.val == y) = 1#1 ↔ _
  rw [← key]
  by_cases h : BitVec.ofNat 32 j.val = y
  · simp [h]
  · have hb : (BitVec.ofNat 32 j.val == y) = false := beq_eq_false_iff_ne.mpr h
    simp [h, hb]

/-- With the label a lane number, the masked sum is the distance at that lane. -/
theorem own_eq (a : Fin 256 → EReal) (P : Fin 128 → Fin 256 → EReal) (y : BitVec 32) (hy : y.toNat < 128) :
    own a y P = dist a P ⟨y.toNat, hy⟩ := by
  unfold own
  rw [Finset.sum_eq_single (⟨y.toNat, hy⟩ : Fin 128)]
  · rw [(hit_eq_one_iff y ⟨y.toNat, hy⟩).mpr rfl]
    exact ValueIdx.select_one _ _
  · intro j _ hne
    have h0 : hit y j = 0#1 := ValueIdx.eq_zero_of_ne_one fun h => hne (Fin.ext ((hit_eq_one_iff y j).mp h))
    rw [h0, ValueIdx.select_zero]
    exact Ideal.ofBits_zero_f32
  · intro h; exact absurd (Finset.mem_univ _) h

/-- 8192 rows are 4 tiles of 2048 rows. -/
theorem sum_tiles (f : Fin 8192 → EReal) :
    ∑ n : Fin 8192, f n
      = ∑ t : Fin 4, ∑ r : Fin 2048, f ⟨2048 * t.val + r.val, by have := t.isLt; have := r.isLt; omega⟩ := by
  rw [← Fintype.sum_prod_type (f := fun p : Fin 4 × Fin 2048 =>
    f ⟨2048 * p.1.val + p.2.val, by have := p.1.isLt; have := p.2.isLt; omega⟩)]
  refine (Fintype.sum_equiv (finProdFinEquiv (m := 4) (n := 2048)) _ _ fun p => congrArg f (Fin.ext ?_)).symm
  show 2048 * p.1.val + p.2.val = p.2.val + 2048 * p.1.val
  omega

end Cert.Glvq

end
-- ==== Proof.LibKeepdims.lean ====
/-
  General lemmas for a row reduction kept as a column (`jnp.sum(axis=1, keepdims=True)`): the cast of a
  length-`a` vector to an `[a, 1]` column read at an index, such a column broadcast across `b` lanes read at
  an index, and, at the ideal values, a float sum over axis 1 of an `[a, b]` array read at a row as the sum
  over the row's entries.  Stated over literal coordinates built by `ix1` / `ix2`.
-/
import Idealize.ShloMosaic.Lib.ValueIdx
import Idealize.ShloMosaic.Lib.Pipeline.Value
import Idealize.ShloMosaic.PureOps.Ideal.Laws

noncomputable section

namespace Idealize.ShloMosaic.ValueIdx

open Idealize.ShloMosaic

variable {α : Type}

/-- A length-`a` vector cast to an `[a, 1]` column reads, at `(i, u)`, the vector at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- At the ideal values a float sum over axis 1 of an `[a, b]` array, read at row `i`, is the sum over `d` of the
    entries `(i, d)`. The accumulator's evidence is taken as the equation of words a printed body carries. -/
theorem rowSum_apply {a b : ℕ} (y : FVec Ideal ⟨2, ![a, b]⟩ .f32) (h : Shape.Reduces ⟨2, ![a, b]⟩ [1] ⟨1, ![a]⟩)
    (hφ : FKind.Formats .f32) (hacc : (0x00000000#32 : BitVec 32) = 0x00000000#32) (i : Fin a) :
    multiReduction .add [1] ⟨1, ![a]⟩ y 0x00000000#32 h hφ hacc (ix1 i) = ∑ d : Fin b, y (ix2 i d) := by
  refine (Ideal.multiReduction_add_single y 0x00000000#32 h hφ hacc (ix1 i)).trans ?_
  refine Finset.sum_congr rfl fun d _ => congrArg y ?_
  funext c
  apply Fin.ext
  match c with
  | ⟨0, _⟩ => rfl
  | ⟨1, _⟩ => rfl

end Idealize.ShloMosaic.ValueIdx

end
-- ==== Proof.KernelRow.lean ====
/-
  The kernel body's arithmetic read at one row of a tile.

  The body's one long pure term (the column of per-row losses of a 2048-row tile, from the tile of `x`, the prototypes
  and the tile of labels) is cut into three named pieces: the tile's 2048 x 128 array of squared distances, the
  2048 x 128 mask "lane number = label", and the loss column from those two.  Each is then read at an index at the
  ideal values: a distance is `(|a|² − 2·⟨a, p⟩) + |p|²` of a row of the tile and a prototype (the bf16 casts are the
  identity there, the transposed matmul into a zero accumulator a plain sum over the 256 coordinates), the mask bit
  compares the lane number with the row's label, and the loss of row `r` is the row loss of the specification.
  Likewise the two small terms around the scratch cell: the cell's update adds the column's sum, the reset is zero.
-/
import proofs.«406086_j51745765982761_2_alg».proof.Proof.Gen.KernelIdeal.Skeleton
import proofs.«406086_j51745765982761_2_alg».proof.Proof.Spec
import proofs.«406086_j51745765982761_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx

variable {F : FTy → Type} [FloatOps F]

/-- The tile's squared distances: `(|x_r|² − 2·(x pᵀ)_{r j}) + |p_j|²`. -/
def distV (v3 : Vec F S2048x256 .f32) (v4 : Vec F S128x256 .f32) : FVec F S2048x128 .f32 :=
  addf
    (subf
      (broadcastTo S2048x128
        (shapeCast S2048x1 (multiReduction .add [1] S2048 (mulf v3 v3) 0x00000000#32 reduces_S2048x256_S2048 (.inl rfl) rfl)
          shapeCasts_S2048_S2048x1) broadcasts_S2048x1_S2048x128)
      (mulf (broadcast S2048x128 (Scalar.ofBits .f32 0x40000000#32))
        (matmul dot_S2048x256_S256x128_S2048x128_1_0_0_1_n_n none (truncf .bf16 v3 bitsLt_bf16_f32)
          (transpose S256x128 [1, 0] (truncf .bf16 v4 bitsLt_bf16_f32) transposes_S128x256_p1_0_S256x128)
          (constant S2048x128 .f32 0x00000000#32))))
    (broadcastTo S2048x128
      (shapeCast S1x128 (multiReduction .add [1] S128 (mulf v4 v4) 0x00000000#32 reduces_S128x256_S128 (.inl rfl) rfl)
        shapeCasts_S128_S1x128) broadcasts_S1x128_S2048x128)

/-- The tile's mask: lane number equals the row's label. -/
def maskV (v21 : Vec F S2048x1 .i32) : IVec S2048x128 1 :=
  cmpi .eq (iota .tc S2048x128 32 [1] iota_S2048x128_d1_w32)
    (broadcastTo S2048x128 (shapeCast S2048x1 v21 shapeCasts_S2048x1_S2048x1) broadcasts_S2048x1_S2048x128)

/-- The loss column from distances and mask. -/
def lossV (d : FVec F S2048x128 .f32) (mk : IVec S2048x128 1) : FVec F S2048x1 .f32 :=
  logistic
    (mulf (broadcast S2048x1 (Scalar.ofBits .f32 0xBF800000#32))
      (divf
        (subf
          (shapeCast S2048x1 (multiReduction .add [1] S2048 (select mk d (broadcast S2048x128 (Scalar.ofBits .f32 0x00000000#32)))
            0x00000000#32 reduces_S2048x128_S2048 (.inl rfl) rfl) shapeCasts_S2048_S2048x1)
          (shapeCast S2048x1 (multiReduction .minimumf [1] S2048 (select mk (broadcast S2048x128 (Scalar.ofBits .f32 0x7F800000#32)) d)
            0x7F800000#32 reduces_S2048x128_S2048 (.inl rfl) rfl) shapeCasts_S2048_S2048x1))
        (addf
          (shapeCast S2048x1 (multiReduction .add [1] S2048 (select mk d (broadcast S2048x128 (Scalar.ofBits .f32 0x00000000#32)))
            0x00000000#32 reduces_S2048x128_S2048 (.inl rfl) rfl) shapeCasts_S2048_S2048x1)
          (shapeCast S2048x1 (multiReduction .minimumf [1] S2048 (select mk (broadcast S2048x128 (Scalar.ofBits .f32 0x7F800000#32)) d)
            0x7F800000#32 reduces_S2048x128_S2048 (.inl rfl) rfl) shapeCasts_S2048_S2048x1))))

/-- The body's term is those three composed. -/
theorem pay4_eq (v3 : Vec F S2048x256 .f32) (v4 : Vec F S128x256 .f32) (v21 : Vec F S2048x1 .i32) :
    k0_pay4 v3 v4 v21 = lossV (distV v3 v4) (maskV v21) := rfl

/-! ## The matmul against the transposed prototypes, at an index -/

theorem lhs_ax0 (i : S2048x128.Idx) (q : dot_S2048x256_S256x128_S2048x128_1_0_0_1_n_n.contr.Idx) : (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhs_ax1 (i : S2048x128.Idx) (q : dot_S2048x256_S256x128_S2048x128_1_0_0_1_n_n.contr.Idx) : (dot_S2048x256_S256x128_S2048x128_1_0_0_1_n_n.lhsIdx i q 1).val = (q ⟨0, by decide⟩).val :=
  dot_S2048x256_S256x128_S2048x128_1_0_0_1_n_n.lhsIdx_val_of_single rfl i q
theorem rhs_ax0 (i : S2048x128.Idx) (q : dot_S2048x256_S256x128_S2048x128_1_0_0_1_n_n.contr.Idx) : (dot_S2048x256_S256x128_S2048x128_1_0_0_1_n_n.rhsIdx i q 0).val = (q ⟨0, by decide⟩).val :=
  dot_S2048x256_S256x128_S2048x128_1_0_0_1_n_n.rhsIdx_val_of_single rfl i q
theorem rhs_ax1 (i : S2048x128.Idx) (q : dot_S2048x256_S256x128_S2048x128_1_0_0_1_n_n.contr.Idx) : (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- Into a zero accumulator the matmul at `(r, j)` is the sum over the 256 contracted coordinates. -/
theorem dot_apply (a : FVec Ideal S2048x256 .bf16) (b : FVec Ideal S256x128 .bf16) (r : Fin 2048) (j : Fin 128) :
    matmul dot_S2048x256_S256x128_S2048x128_1_0_0_1_n_n none a b (constant S2048x128 .f32 0x00000000#32) (ix2 r j)
      = ∑ k : Fin 256, a (ix2 r k) * b (ix2 k j) := by
  simp only [matmul]
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 r j) ((contrEquiv1 dot_S2048x256_S256x128_S2048x128_1_0_0_1_n_n 256 rfl rfl).symm k) = ix2 r k := funext fun ax => Fin.ext (by
    match ax with
    | ⟨0, _⟩ => exact lhs_ax0 _ _
    | ⟨1, _⟩ => exact (lhs_ax1 _ _).trans hk)
  have er : dot_S2048x256_S256x128_S2048x128_1_0_0_1_n_n.rhsIdx (ix2 r j) ((contrEquiv1 dot_S2048x256_S256x128_S2048x128_1_0_0_1_n_n 256 rfl rfl).symm k) = ix2 k j := funext fun ax => Fin.ext (by
    match ax with
    | ⟨0, _⟩ => exact (rhs_ax0 _ _).trans hk
    | ⟨1, _⟩ => exact rhs_ax1 _ _)
  rw [el, er]

/-! ## The three pieces at an index, at the ideal values -/

theorem distV_apply (v3 : FVec Ideal S2048x256 .f32) (v4 : FVec Ideal S128x256 .f32) (r : Fin 2048) (j : Fin 128) :
    distV (F := Ideal) v3 v4 (ix2 r j) = Cert.Glvq.dist (fun k => v3 (ix2 r k)) (fun p k => v4 (ix2 p k)) j := by
  unfold distV Cert.Glvq.dist Cert.Glvq.sqn
  rw [addf_apply, subf_apply, mulf_apply, broadcast_apply, broadcastTo_a1_ab_apply, shapeCast_a_a1_apply, rowSum_apply,
    broadcastTo_1b_ab_apply, shapeCast_a_1a_apply, rowSum_apply, dot_apply]
  have ht : ∀ k : Fin 256,
      transpose S256x128 [1, 0] (truncf .bf16 v4 bitsLt_bf16_f32) transposes_S128x256_p1_0_S256x128 (ix2 k j) = v4 (ix2 j k) :=
    fun k => transpose_ix2_apply (truncf .bf16 v4 bitsLt_bf16_f32) transposes_S128x256_p1_0_S256x128 k j
  simp only [ht]
  rfl

theorem maskV_apply (v21 : Vec Ideal S2048x1 .i32) (r : Fin 2048) (j : Fin 128) :
    maskV (F := Ideal) v21 (ix2 r j) = Cert.Glvq.hit (v21 (ix2 r (0 : Fin 1))) j := by
  unfold maskV Cert.Glvq.hit
  show IntOp.cmpi .eq (iota .tc S2048x128 32 [1] iota_S2048x128_d1_w32 (ix2 r j))
    (broadcastTo S2048x128 (shapeCast S2048x1 v21 shapeCasts_S2048x1_S2048x1) broadcasts_S2048x1_S2048x128 (ix2 r j)) = _
  rw [iota_single_apply, shapeCast_self, broadcastTo_a1_ab_apply]

/-- At the ideal values a minimum over axis 1 of an `[a, b]` array, read at row `i`, is the fold of the minimum from +∞
    over the row's entries. -/
theorem rowMin_apply {a b : ℕ} (y : FVec Ideal ⟨2, ![a, b]⟩ .f32) (h : Shape.Reduces ⟨2, ![a, b]⟩ [1] ⟨1, ![a]⟩)
    (hφ : FKind.Formats .f32) (hacc : (0x7F800000#32 : BitVec 32) = 0x7F800000#32) (i : Fin a) :
    multiReduction .minimumf [1] ⟨1, ![a]⟩ y 0x7F800000#32 h hφ hacc (ix1 i)
      = (Finset.univ : Finset (Fin b)).fold (FloatOps.minimumf (F := Ideal) (φ := .f32)) (Ideal.ofBits .f32 0x7F800000#32)
          (fun d => y (ix2 i d)) := by
  refine (multiReduction_minimumf_eq_fold y 0x7F800000#32 h hφ hacc (ix1 i)).trans ?_
  refine (h.fold_filter_drop_single _ _ y (ix1 i)).trans ?_
  refine congrArg (fun f => Finset.fold _ _ f Finset.univ) (funext fun d => congrArg y ?_)
  funext c
  apply Fin.ext
  match c with
  | ⟨0, _⟩ => rfl
  | ⟨1, _⟩ => rfl

theorem lossV_apply (d : FVec Ideal S2048x128 .f32) (mk : IVec S2048x128 1) (r : Fin 2048) :
    lossV d mk (ix2 r (0 : Fin 1))
      = Ideal.logistic (Ideal.ofBits .f32 0xBF800000#32 *
          Ideal.div
            ((∑ j : Fin 128, Scalar.select (mk (ix2 r j)) (d (ix2 r j)) (Ideal.ofBits .f32 0x00000000#32))
              - (Finset.univ : Finset (Fin 128)).fold (FloatOps.minimumf (F := Ideal) (φ := .f32)) (Ideal.ofBits .f32 0x7F800000#32)
                  (fun j => Scalar.select (mk (ix2 r j)) (Ideal.ofBits .f32 0x7F800000#32) (d (ix2 r j))))
            ((∑ j : Fin 128, Scalar.select (mk (ix2 r j)) (d (ix2 r j)) (Ideal.ofBits .f32 0x00000000#32))
              + (Finset.univ : Finset (Fin 128)).fold (FloatOps.minimumf (F := Ideal) (φ := .f32)) (Ideal.ofBits .f32 0x7F800000#32)
                  (fun j => Scalar.select (mk (ix2 r j)) (Ideal.ofBits .f32 0x7F800000#32) (d (ix2 r j))))) := by
  unfold lossV
  show Ideal.logistic (_ * Ideal.div (_ - _) (_ + _)) = _
  rw [shapeCast_a_a1_apply, shapeCast_a_a1_apply, rowSum_apply, rowMin_apply]
  rfl

/-- THE ROW: the body's loss column at row `r` of the tile is the specification's row loss of that row of the tile of
    `x`, that row's label, and the prototypes. -/
theorem pay4_apply (v3 : FVec Ideal S2048x256 .f32) (v4 : FVec Ideal S128x256 .f32) (v21 : Vec Ideal S2048x1 .i32) (r : Fin 2048) :
    k0_pay4 v3 v4 v21 (ix2 r (0 : Fin 1))
      = Cert.Glvq.rowLoss (fun k => v3 (ix2 r k)) (v21 (ix2 r (0 : Fin 1))) (fun p k => v4 (ix2 p k)) := by
  rw [pay4_eq, lossV_apply]
  unfold Cert.Glvq.rowLoss Cert.Glvq.own Cert.Glvq.other
  simp only [distV_apply, maskV_apply]

/-! ## The scratch cell's two terms -/

/-- At the ideal values a float sum over axis 0 of a `[2048, 1]` column, read at its one index, is the sum of the
    column's entries. -/
theorem colSum_apply (y : FVec Ideal S2048x1 .f32) (h : Shape.Reduces S2048x1 [0] S1)
    (hφ : FKind.Formats .f32) (hacc : (0x00000000#32 : BitVec 32) = 0x00000000#32) :
    multiReduction .add [0] S1 y 0x00000000#32 h hφ hacc (ix1 (0 : Fin 1)) = ∑ r : Fin 2048, y (ix2 r (0 : Fin 1)) := by
  refine (Ideal.multiReduction_add_single y 0x00000000#32 h hφ hacc (ix1 (0 : Fin 1))).trans ?_
  refine Finset.sum_congr rfl fun d _ => congrArg y ?_
  funext c
  apply Fin.ext
  match c with
  | ⟨0, _⟩ => rfl
  | ⟨1, _⟩ => rfl

/-- The update: the cell's old value plus the column's sum. -/
theorem pay1_apply (v39 : FVec Ideal S2048x1 .f32) (v42 : Vec Ideal S1x1 .f32) :
    k0_pay1 v39 v42 (ix2 (0 : Fin 1) (0 : Fin 1)) = v42 (ix2 (0 : Fin 1) (0 : Fin 1)) + ∑ r : Fin 2048, v39 (ix2 r (0 : Fin 1)) := by
  unfold k0_pay1
  rw [shapeCast_self, addf_apply, shapeCast_a_a1_apply, colSum_apply]

/-- The reset: zero. -/
theorem pay3_apply (z : S1x1.Idx) : k0_pay3 (F := Ideal) z = 0 := by
  unfold k0_pay3
  rw [shapeCast_self]
  exact Ideal.ofBits_zero_f32

end Cert.KernelIdeal.Row

end
-- ==== Proof.KernelResult.lean ====
/-
  The kernel's result as a number.  At the ideal values each tile's column of losses, read at row `r`, is the
  specification's row loss of row `2048·t + r` of the arguments; a core's total is zero plus its first tile's sum plus its
  second tile's sum; and the program's result is the sum of the two totals divided by the word 8192.0.  Regrouped, that
  is zero plus the sum of all 8192 row losses, divided by the same word.
-/
import proofs.«406086_j51745765982761_2_alg».proof.Proof.KernelValue
import proofs.«406086_j51745765982761_2_alg».proof.Proof.KernelRow
import proofs.«406086_j51745765982761_2_alg».proof.Proof.Spec

noncomputable section

open Idealize.ShloMosaic Idealize.ShloMosaic.TcCoe Idealize.SL.Sem Idealize.ShloMosaic.ValueIdx

namespace Cert.KernelIdeal.Glvq

open Cert.KernelIdeal Cert.KernelIdeal.Gen

variable (m : (ℓ : Loc nD τ sig) → Buf (Elt Ideal) ℓ)

/-- The loss of row `n` of the arguments. -/
def rowOf (c : Dev nD) (n : Fin 8192) : EReal :=
  Cert.Glvq.rowLoss (fun k => m ((c.tc : Thread nD τ).loc main_arg0) (ix2 n k)) (m ((c.tc : Thread nD τ).loc main_arg1) (ix1 n))
    (fun p k => m ((c.tc : Thread nD τ).loc main_arg2) (ix2 p k))

/-- Row `r` of tile `t`'s column is the loss of row `2048·t + r`. -/
theorem tileCol_apply (c : Dev nD) (t : Fin cfg0.N) (r : Fin 2048) (hr : 2048 * t.val + r.val < 8192) :
    tileCol m c t (ix2 r (0 : Fin 1)) = rowOf m c ⟨2048 * t.val + r.val, hr⟩ := by
  refine (Cert.KernelIdeal.Row.pay4_apply (iblk m c 0 t) (iblk m c 1 t) (iblk m c 2 t) r).trans ?_
  have ex : (fun k : Fin 256 => (iblk m c 0 t : Vec Ideal S2048x256 .f32) (ix2 r k))
      = fun k => m ((c.tc : Thread nD τ).loc main_arg0) (ix2 (⟨2048 * t.val + r.val, hr⟩ : Fin 8192) k) :=
    funext fun k => xblk_apply m c t r k hr
  have ep : (fun (p : Fin 128) (k : Fin 256) => (iblk m c 1 t : Vec Ideal S128x256 .f32) (ix2 p k))
      = fun p k => m ((c.tc : Thread nD τ).loc main_arg2) (ix2 p k) :=
    funext fun p => funext fun k => pblk_apply m c t p k
  have ey : (iblk m c 2 t : Vec Ideal S2048x1 .i32) (ix2 r (0 : Fin 1))
      = m ((c.tc : Thread nD τ).loc main_arg1) (ix1 (⟨2048 * t.val + r.val, hr⟩ : Fin 8192)) := yblk_apply m c t r hr
  unfold rowOf
  rw [ex, ep, ey]

/-- A tile's column sum is the sum of its 2048 rows' losses. -/
theorem tileSum (c : Dev nD) (t : Fin cfg0.N) (ht : t.val < 4) :
    ∑ r : Fin 2048, tileCol m c t (ix2 r (0 : Fin 1))
      = ∑ r : Fin 2048, rowOf m c ⟨2048 * t.val + r.val, by have := r.isLt; omega⟩ :=
  Finset.sum_congr rfl fun r _ => tileCol_apply m c t r _

/-- Core 0's total: zero, plus tile 0's sum, plus tile 1's sum; core 1's likewise over tiles 2 and 3. -/
theorem total0_apply (c : Dev nD) :
    total0 m c (ix2 (0 : Fin 1) (0 : Fin 1))
      = (0 + ∑ r : Fin 2048, rowOf m c ⟨2048 * 0 + r.val, by have := r.isLt; omega⟩)
        + ∑ r : Fin 2048, rowOf m c ⟨2048 * 1 + r.val, by have := r.isLt; omega⟩ := by
  unfold total0
  rw [Cert.KernelIdeal.Row.pay1_apply, Cert.KernelIdeal.Row.pay1_apply, Cert.KernelIdeal.Row.pay3_apply,
    tileSum m c t0_1 (by decide), tileSum m c t0_0 (by decide)]
  rfl

theorem total1_apply (c : Dev nD) :
    total1 m c (ix2 (0 : Fin 1) (0 : Fin 1))
      = (0 + ∑ r : Fin 2048, rowOf m c ⟨2048 * 2 + r.val, by have := r.isLt; omega⟩)
        + ∑ r : Fin 2048, rowOf m c ⟨2048 * 3 + r.val, by have := r.isLt; omega⟩ := by
  unfold total1
  rw [Cert.KernelIdeal.Row.pay1_apply, Cert.KernelIdeal.Row.pay1_apply, Cert.KernelIdeal.Row.pay3_apply,
    tileSum m c t0_3 (by decide), tileSum m c t0_2 (by decide)]
  rfl

/-- The host lines after the call, at the ideal values: entry (0,0) plus entry (8,0) of the array, over 8192.0. -/
theorem tailOf_apply (X : FVec Ideal S16x128 .f32) (i : S_.Idx) :
    tailOf (F := Ideal) X i
      = Ideal.div (X (ix2 (0 : Fin 16) (0 : Fin 128)) + X (ix2 (8 : Fin 16) (0 : Fin 128))) (Ideal.ofBits .f32 0x46000000#32) := by
  have hs : ∀ (Z : Vec Ideal S1x1 .f32), shapeCast S_ Z shapeCasts_S1x1_S_ i = Z (ix2 (0 : Fin 1) (0 : Fin 1)) := fun Z =>
    shapeCast_apply Z shapeCasts_S1x1_S_ i (ix2 (0 : Fin 1) (0 : Fin 1)) (by
      have h1 : (S1x1.rowMajor (ix2 (0 : Fin 1) (0 : Fin 1))).val < 1 := (S1x1.rowMajor _).isLt
      have h2 : (S_.rowMajor i).val < 1 := (S_.rowMajor i).isLt
      omega)
  have e0 : extractStridedSlice S1x1 ![0, 0] X slices_S16x128_S1x1_0_0 (ix2 (0 : Fin 1) (0 : Fin 1)) = X (ix2 (0 : Fin 16) (0 : Fin 128)) := by
    unfold extractStridedSlice
    refine congrArg X (funext fun a => Fin.ext ?_)
    match a with
    | ⟨0, _⟩ => rfl
    | ⟨1, _⟩ => rfl
  have e8 : extractStridedSlice S1x1 ![8, 0] X slices_S16x128_S1x1_8_0 (ix2 (0 : Fin 1) (0 : Fin 1)) = X (ix2 (8 : Fin 16) (0 : Fin 128)) := by
    unfold extractStridedSlice
    refine congrArg X (funext fun a => Fin.ext ?_)
    match a with
    | ⟨0, _⟩ => rfl
    | ⟨1, _⟩ => rfl
  unfold tailOf
  show Ideal.div (_ + _) _ = _
  rw [hs, hs, e0, e8]
  rfl

/-- THE KERNEL'S RESULT: zero plus the sum of the 8192 row losses, over 8192.0. -/
theorem result_eq (c : Dev nD) :
    tailOf (outArr m c) = fun _ => Ideal.div (0 + ∑ n : Fin 8192, rowOf m c n) (Ideal.ofBits .f32 0x46000000#32) := by
  funext i
  rw [tailOf_apply]
  have a0 : outArr m c (ix2 (0 : Fin 16) (0 : Fin 128)) = total0 m c (ix2 (0 : Fin 1) (0 : Fin 1)) := if_pos (by decide)
  have a8 : outArr m c (ix2 (8 : Fin 16) (0 : Fin 128)) = total1 m c (ix2 (0 : Fin 1) (0 : Fin 1)) := if_neg (by decide)
  rw [a0, a8, total0_apply, total1_apply, Cert.Glvq.sum_tiles, Fin.sum_univ_four]
  simp only [zero_add, add_assoc]
  rfl

end Cert.KernelIdeal.Glvq

end
-- ==== Proof.Labels.lean ====
/-
  Facts about a 32-bit word read as a signed integer.  A label `y` with `0 ≤ y` and `y < 128` as signed compares has
  value below 128, reads the same signed as unsigned, and is not negative; and the number of a row (below 8192), as a
  word, is that number, signed or unsigned, and is not negative.
-/
import Idealize.ShloMosaic.Lib.StableHlo.Predicate

namespace Cert.Glvq

open Idealize.ShloMosaic Idealize.ShloMosaic.StableHlo.Predicate

/-- A word that is `≥ 0` and `< 128` as a signed integer: its value is below 128, its signed reading is its value,
    and the compare `y < 0` is false. -/
theorem label_facts (y : BitVec 32) (hge : IntOp.cmpi .sge y 0#32 = 1#1) (hlt : IntOp.cmpi .slt y 128#32 = 1#1) :
    y.toNat < 128 ∧ y.toInt.toNat = y.toNat ∧ IntOp.cmpi .slt y 0#32 = 0#1 := by
  have h1 : (0#32 : BitVec 32).sle y = true := (ofBool_eq_one_iff _).mp hge
  have h2 : y.slt 128#32 = true := (ofBool_eq_one_iff _).mp hlt
  have z : (0#32 : BitVec 32).toInt = 0 := by decide
  have c : (128#32 : BitVec 32).toInt = 128 := by decide
  have g1 : (0 : Int) ≤ y.toInt := by
    have := of_decide_eq_true (show decide ((0#32 : BitVec 32).toInt ≤ y.toInt) = true from h1)
    rwa [z] at this
  have g2 : y.toInt < 128 := by
    have := of_decide_eq_true (show decide (y.toInt < (128#32 : BitVec 32).toInt) = true from h2)
    rwa [c] at this
  have hc := BitVec.toInt_eq_toNat_cond y
  have hN : y.toNat < 2 ^ 32 := y.isLt
  have e : y.toInt = (y.toNat : Int) := by
    split at hc
    · exact hc
    · omega
  refine ⟨by omega, by omega, ?_⟩
  have hs : y.slt 0#32 = false := by
    show decide (y.toInt < (0#32 : BitVec 32).toInt) = false
    rw [z]
    exact decide_eq_false (by omega)
  show BitVec.ofBool (y.slt 0#32) = 0#1
  rw [hs]
  rfl

/-- The number of a row as a word: not negative, and read signed it is the number. -/
theorem rownum_facts (n : Fin 8192) :
    IntOp.cmpi .slt (BitVec.ofNat 32 n.val) 0#32 = 0#1 ∧ (BitVec.ofNat 32 n.val).toInt.toNat = n.val := by
  have hn : n.val < 2 ^ 31 := lt_trans n.isLt (by decide)
  have e : (BitVec.ofNat 32 n.val).toInt = (n.val : Int) := toInt_ofNat_small n.val hn
  have z : (0#32 : BitVec 32).toInt = 0 := by decide
  refine ⟨?_, by rw [e]; exact Int.toNat_natCast _⟩
  have hs : (BitVec.ofNat 32 n.val).slt 0#32 = false := by
    show decide ((BitVec.ofNat 32 n.val).toInt < (0#32 : BitVec 32).toInt) = false
    rw [z, e]
    exact decide_eq_false (by omega)
  show BitVec.ofBool ((BitVec.ofNat 32 n.val).slt 0#32) = 0#1
  rw [hs]
  rfl

/-- The one-bit equality compare does not depend on the order of its operands. -/
theorem cmpi_eq_comm (a b : BitVec 32) : IntOp.cmpi .eq a b = IntOp.cmpi .eq b a := by
  show BitVec.ofBool (a == b) = BitVec.ofBool (b == a)
  by_cases h : a = b
  · subst h; rfl
  · have h' : ¬b = a := fun e => h e.symm
    rw [beq_eq_false_iff_ne.mpr h, beq_eq_false_iff_ne.mpr h']

end Cert.Glvq
-- ==== Proof.RefRow.lean ====
/-
  The reference program read at one row.

  Stage by stage the reference computes, for row `n`: the 128 squared distances `(|x_n|² − 2·⟨x_n, p_j⟩) + |p_j|²` (its
  host sums start from a zero that is added, its `dot_general` is the plain sum over the 256 coordinates); the
  distance at the label by a gather at the index pair (row number, label), each first wrapped if negative and then
  clamped into range by the gather; the one-hot row of the label, under which the distances are replaced by +∞ before
  the minimum over the lanes; and the logistic of `−(d₊ − d₋)/(d₊ + d₋)` spelled as `1 / (1 + exp(−z))`.  With the label
  in `[0, 128)` neither the wrap nor the clamp moves the index pair, the gathered entry is the masked sum of the
  specification, and the row's value is the specification's row loss.
-/
import proofs.«406086_j51745765982761_2_alg».proof.Proof.Gen.ReferenceIdeal.Read
import proofs.«406086_j51745765982761_2_alg».proof.Proof.Spec
import proofs.«406086_j51745765982761_2_alg».proof.Proof.Labels
import Idealize.ShloMosaic.Lib.ValueIdx
import Idealize.ShloMosaic.Lib.Pipeline.Value
import Idealize.ShloMosaic.PureOps.Ideal.Laws

noncomputable section

namespace Cert.ReferenceIdeal.Row

open Cert.ReferenceIdeal Cert.ReferenceIdeal.Gen Cert.ReferenceIdeal.Read Idealize.ShloMosaic Idealize.ShloMosaic.ValueIdx

variable (x0 : (⟨S8192x256, .f32⟩ : BufTy).Contents (Elt Ideal)) (x1 : (⟨S8192, .i32⟩ : BufTy).Contents (Elt Ideal))
  (x2 : (⟨S128x256, .f32⟩ : BufTy).Contents (Elt Ideal))

/-- The word 1.0 is the real number one. -/
theorem ofBits_one : Ideal.ofBits .f32 0x3F800000#32 = 1 := by
  simp [Ideal.ofBits, Ideal.ieee, -EReal.coe_mul]; norm_num

/-! ## The distances -/

theorem dist_apply (n : Fin 8192) (j : Fin 128) :
    val_main_v12 (F := Ideal) x0 x2 (ix2 n j) = Cert.Glvq.dist (fun k => x0 (ix2 n k)) (fun p k => x2 (ix2 p k)) j := by
  have e1 : ∀ k, idx_main_v1 (idx_main_v2 (idx_main_v8 (ix2 n j))) k = ix2 n k := fun k => funext fun a => Fin.ext (by
    match a with
    | ⟨0, _⟩ => rfl
    | ⟨1, _⟩ => rfl)
  have e2 : ∀ k, lidx_main_v5 (ix2 n j) k = ix2 n k := fun k => funext fun a => Fin.ext (by
    match a with
    | ⟨0, _⟩ => rfl
    | ⟨1, _⟩ => rfl)
  have e3 : ∀ k, ridx_main_v5 (ix2 n j) k = ix2 j k := fun k => funext fun a => Fin.ext (by
    match a with
    | ⟨0, _⟩ => rfl
    | ⟨1, _⟩ => rfl)
  have e4 : ∀ k, idx_main_v4 (idx_main_v10 (idx_main_v11 (ix2 n j))) k = ix2 j k := fun k => funext fun a => Fin.ext (by
    match a with
    | ⟨0, _⟩ => rfl
    | ⟨1, _⟩ => rfl)
  rw [val_main_v12_apply, val_main_v9_apply, val_main_v8_apply, val_main_v2_apply, val_main_v1_apply, val_main_v7_apply,
    val_main_v6_apply, val_main_cst_1_apply, val_main_v5_apply, val_main_v11_apply, val_main_v10_apply, val_main_v4_apply]
  simp only [val_main_v0_apply, val_main_v3_apply, val_main_cst_apply, val_main_cst_0_apply, e1, e2, e3, e4, Ideal.addf_def, Ideal.subf_def, Ideal.mulf_def, Ideal.ofBits_def,
    Ideal.ofBits_zero_f32, zero_add]
  rfl

/-! ## The one-hot row and the minimum under it -/

theorem onehot_apply (n : Fin 8192) (j : Fin 128) :
    val_main_v28 (F := Ideal) x1 (ix2 n j) = Cert.Glvq.hit (x1 (ix1 n)) j := by
  have e : idx_main_call0_v0 (idx_main_call0_v2 (ix2 n j)) = ix1 n := funext fun a => Fin.ext (by
    match a with
    | ⟨0, _⟩ => rfl)
  rw [val_main_v28_apply, val_main_call0_v2_apply, val_main_call0_v0_apply, val_main_call0_v3_apply, val_main_call0_v1_apply, e]
  exact Cert.Glvq.cmpi_eq_comm _ _

theorem masked_apply (n : Fin 8192) (j : Fin 128) :
    val_main_v29 (F := Ideal) x0 x1 x2 (ix2 n j)
      = Scalar.select (Cert.Glvq.hit (x1 (ix1 n)) j) (Ideal.ofBits .f32 0x7F800000#32)
          (Cert.Glvq.dist (fun k => x0 (ix2 n k)) (fun p k => x2 (ix2 p k)) j) := by
  rw [val_main_v29_apply, onehot_apply, dist_apply, val_main_call1_v1_apply]
  rfl

/-- At the ideal values the host's minimum over axis 1 of an `[a, b]` array, read at row `i`, is the fold of the
    minimum from the initial value over the row's entries. -/
theorem hostRowMin_apply {a b : ℕ} (y : (⟨2, ![a, b]⟩ : Shape).Idx → Ideal .f32) (init : (⟨0, ![]⟩ : Shape).Idx → Ideal .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (i : Fin a) :
    Host.reduce (FloatOps.minimumf (F := Ideal) (φ := .f32)) y init h' hu (ix1 i)
      = (Finset.univ : Finset (Fin b)).fold (FloatOps.minimumf (F := Ideal) (φ := .f32)) (init (Shape.Idx.first hu))
          (fun d => y (ix2 i d)) := by
  refine (Host.reduce_eq_fold_single (FloatOps.minimumf (F := Ideal) (φ := .f32)) y init h' h hu (ix1 i)).trans ?_
  refine congrArg (fun f => Finset.fold _ _ f Finset.univ) (funext fun d => congrArg y ?_)
  funext c
  apply Fin.ext
  match c with
  | ⟨0, _⟩ => rfl
  | ⟨1, _⟩ => rfl

theorem other_apply (n : Fin 8192) :
    val_main_v30 (F := Ideal) x0 x1 x2 (ix1 n)
      = Cert.Glvq.other (fun k => x0 (ix2 n k)) (x1 (ix1 n)) (fun p k => x2 (ix2 p k)) := by
  have h : S8192x128.Reduces [1] S8192 := by decide
  unfold val_main_v30 Cert.Glvq.other
  refine (hostRowMin_apply (val_main_v29 (F := Ideal) x0 x1 x2) (val_main_cst_6 (F := Ideal)) reducesTo_S8192x128_S8192_d1 h h_S_ n).trans ?_
  exact congrArg (fun f => Finset.fold _ _ f Finset.univ) (funext fun d => masked_apply x0 x1 x2 n d)

/-! ## The gather at (row number, label) -/

theorem gather_ax0 (idx : IVec S8192x2 32) (n : Fin 8192) :
    (gather_S8192x128_S8192x2_S8192_n_01_n_n_01_1_11.operandIdx (ix1 n) idx (0 : Fin 2)).val = min (idx (ix2 n (0 : Fin 2))).toInt.toNat 8191 := by
  show gather_S8192x128_S8192x2_S8192_n_01_n_n_01_1_11.start (ix1 n) idx 0 + gather_S8192x128_S8192x2_S8192_n_01_n_n_01_1_11.batchCoord (ix1 n) 0 + gather_S8192x128_S8192x2_S8192_n_01_n_n_01_1_11.offCoord (ix1 n) 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 2) ∈ gather_S8192x128_S8192x2_S8192_n_01_n_n_01_1_11.startIndexMap from by decide)]
  have hsi : gather_S8192x128_S8192x2_S8192_n_01_n_n_01_1_11.siIdx (ix1 n) ⟨List.idxOf (0 : Fin 2) gather_S8192x128_S8192x2_S8192_n_01_n_n_01_1_11.startIndexMap,
      List.idxOf_lt_length_iff.2 (by decide)⟩ = ix2 n (0 : Fin 2) := by
    funext b; refine Fin.ext ?_
    match b with
    | ⟨0, _⟩ => rfl
    | ⟨1, _⟩ => rfl
  rw [hsi]
  rfl

theorem gather_ax1 (idx : IVec S8192x2 32) (n : Fin 8192) :
    (gather_S8192x128_S8192x2_S8192_n_01_n_n_01_1_11.operandIdx (ix1 n) idx (1 : Fin 2)).val = min (idx (ix2 n (1 : Fin 2))).toInt.toNat 127 := by
  show gather_S8192x128_S8192x2_S8192_n_01_n_n_01_1_11.start (ix1 n) idx 1 + gather_S8192x128_S8192x2_S8192_n_01_n_n_01_1_11.batchCoord (ix1 n) 1 + gather_S8192x128_S8192x2_S8192_n_01_n_n_01_1_11.offCoord (ix1 n) 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 2) ∈ gather_S8192x128_S8192x2_S8192_n_01_n_n_01_1_11.startIndexMap from by decide)]
  have hsi : gather_S8192x128_S8192x2_S8192_n_01_n_n_01_1_11.siIdx (ix1 n) ⟨List.idxOf (1 : Fin 2) gather_S8192x128_S8192x2_S8192_n_01_n_n_01_1_11.startIndexMap,
      List.idxOf_lt_length_iff.2 (by decide)⟩ = ix2 n (1 : Fin 2) := by
    funext b; refine Fin.ext ?_
    match b with
    | ⟨0, _⟩ => rfl
    | ⟨1, _⟩ => rfl
  rw [hsi]
  rfl

/-- The index pair at row `n`: the row number and the label, each as the reference normalizes it. -/
theorem pair_ax0 (n : Fin 8192) : val_main_v26 (F := Ideal) x1 (ix2 n (0 : Fin 2)) = val_main_v18 (F := Ideal) (ix1 n) := by
  unfold val_main_v26
  refine (concatenate_pair_apply_left (t := S8192x2) (s₁ := S8192x1) (s₂ := S8192x1) (1 : Fin 2) _ _ concatenates_S8192x1_S8192x1_S8192x2_d1 (ix2 n (0 : Fin 2)) rfl
    (ix2 n (0 : Fin 1)) (fun b => by
      match b with
      | ⟨0, _⟩ => rfl
      | ⟨1, _⟩ => rfl)).trans ?_
  rw [val_main_v24_apply]
  exact congrArg _ (funext fun a => Fin.ext (by
    match a with
    | ⟨0, _⟩ => rfl))

theorem pair_ax1 (n : Fin 8192) : val_main_v26 (F := Ideal) x1 (ix2 n (1 : Fin 2)) = val_main_v23 (F := Ideal) x1 (ix1 n) := by
  unfold val_main_v26
  refine (concatenate_pair_apply_right (t := S8192x2) (s₁ := S8192x1) (s₂ := S8192x1) (1 : Fin 2) _ _ concatenates_S8192x1_S8192x1_S8192x2_d1 (ix2 n (1 : Fin 2)) rfl rfl
    (ix2 n (0 : Fin 1)) (fun b hb => by
      match b with
      | ⟨0, _⟩ => rfl
      | ⟨1, _⟩ => exact absurd rfl hb) rfl).trans ?_
  rw [val_main_v25_apply]
  exact congrArg _ (funext fun a => Fin.ext (by
    match a with
    | ⟨0, _⟩ => rfl))

/-- The row number, normalized, is the row number. -/
theorem rownum_apply (n : Fin 8192) : val_main_v18 (F := Ideal) (ix1 n) = BitVec.ofNat 32 n.val := by
  rw [val_main_v18_apply, val_main_v15_apply, val_main_v13_apply, val_main_v14_apply, val_main_c_apply]
  show Scalar.select (IntOp.cmpi .slt (BitVec.ofNat 32 n.val) 0#32) _ _ = _
  rw [(Cert.Glvq.rownum_facts n).1, select_zero]

/-- A label in range, normalized, is the label. -/
theorem label_apply (n : Fin 8192) (hneg : IntOp.cmpi .slt (x1 (ix1 n)) 0#32 = 0#1) :
    val_main_v23 (F := Ideal) x1 (ix1 n) = x1 (ix1 n) := by
  rw [val_main_v23_apply, val_main_v20_apply, val_main_v19_apply, val_main_c_3_apply, hneg, select_zero]

/-- THE GATHER: with the label in range it reads the distance at the label, which is the masked sum. -/
theorem own_apply (n : Fin 8192) (hge : IntOp.cmpi .sge (x1 (ix1 n)) 0#32 = 1#1) (hlt : IntOp.cmpi .slt (x1 (ix1 n)) 128#32 = 1#1) :
    val_main_v27 (F := Ideal) x0 x1 x2 (ix1 n)
      = Cert.Glvq.own (fun k => x0 (ix2 n k)) (x1 (ix1 n)) (fun p k => x2 (ix2 p k)) := by
  obtain ⟨hy, hyi, hneg⟩ := Cert.Glvq.label_facts (x1 (ix1 n)) hge hlt
  rw [Cert.Glvq.own_eq _ _ _ hy, ← dist_apply x0 x2 n ⟨(x1 (ix1 n)).toNat, hy⟩]
  unfold val_main_v27 Host.gather
  refine congrArg _ (funext fun a => Fin.ext ?_)
  match a with
  | ⟨0, _⟩ =>
    refine (gather_ax0 _ n).trans ?_
    rw [pair_ax0, rownum_apply, (Cert.Glvq.rownum_facts n).2]
    exact Nat.min_eq_left (by have := n.isLt; omega)
  | ⟨1, _⟩ =>
    refine (gather_ax1 _ n).trans ?_
    rw [pair_ax1, label_apply x1 n hneg, hyi]
    exact Nat.min_eq_left (by omega)

/-! ## The row -/

theorem row_apply (n : Fin 8192) (hge : IntOp.cmpi .sge (x1 (ix1 n)) 0#32 = 1#1) (hlt : IntOp.cmpi .slt (x1 (ix1 n)) 128#32 = 1#1) :
    val_main_v41 (F := Ideal) x0 x1 x2 (ix1 n)
      = Cert.Glvq.rowLoss (fun k => x0 (ix2 n k)) (x1 (ix1 n)) (fun p k => x2 (ix2 p k)) := by
  rw [val_main_v41_apply, val_main_v40_apply, val_main_cst_9_apply, val_main_v39_apply, val_main_v38_apply, val_main_cst_8_apply,
    val_main_v37_apply, val_main_v36_apply, val_main_v35_apply, val_main_v34_apply, val_main_cst_7_apply, val_main_v33_apply,
    val_main_v32_apply, val_main_v31_apply, own_apply x0 x1 x2 n hge hlt, other_apply]
  unfold Cert.Glvq.rowLoss Ideal.logistic
  simp only [Ideal.hostDivf_def, Ideal.addf_def, Ideal.hostUnary_exp_def, Ideal.hostNegf_def, Ideal.negf_def, Ideal.mulf_def,
    Ideal.subf_def, Ideal.ofBits_def, ofBits_one]

end Cert.ReferenceIdeal.Row

end
-- ==== Proof.RefResult.lean ====
/-
  The reference's result as a number: its last two stages divide, by the word 8192.0, zero plus the sum over the 8192 rows of
  the row's value, and with every label in range each row's value is the specification's row loss.
-/
import proofs.«406086_j51745765982761_2_alg».proof.Proof.RefRow

noncomputable section

namespace Cert.ReferenceIdeal.Row

open Cert.ReferenceIdeal Cert.ReferenceIdeal.Gen Cert.ReferenceIdeal.Read Idealize.ShloMosaic Idealize.ShloMosaic.ValueIdx

variable (x0 : (⟨S8192x256, .f32⟩ : BufTy).Contents (Elt Ideal)) (x1 : (⟨S8192, .i32⟩ : BufTy).Contents (Elt Ideal))
  (x2 : (⟨S128x256, .f32⟩ : BufTy).Contents (Elt Ideal))

/-- An index of a vector is its one coordinate. -/
def idxEquiv1 {n : ℕ} : (⟨1, ![n]⟩ : Shape).Idx ≃ Fin n where
  toFun j := j 0
  invFun := ix1
  left_inv j := (eq_ix1 j).symm
  right_inv _ := rfl

/-- THE REFERENCE'S RESULT: zero plus the sum of the 8192 row losses, over 8192.0. -/
theorem result_eq
    (hr : ∀ n : Fin 8192, IntOp.cmpi .sge (x1 (ix1 n)) 0#32 = 1#1 ∧ IntOp.cmpi .slt (x1 (ix1 n)) 128#32 = 1#1) :
    val_main_v43 (F := Ideal) x0 x1 x2
      = fun _ => Ideal.div
          (0 + ∑ n : Fin 8192, Cert.Glvq.rowLoss (fun k => x0 (ix2 n k)) (x1 (ix1 n)) (fun p k => x2 (ix2 p k)))
          (Ideal.ofBits .f32 0x46000000#32) := by
  funext i
  have hs : ∑ j : S8192.Idx, val_main_v41 (F := Ideal) x0 x1 x2 j
      = ∑ n : Fin 8192, Cert.Glvq.rowLoss (fun k => x0 (ix2 n k)) (x1 (ix1 n)) (fun p k => x2 (ix2 p k)) :=
    Fintype.sum_equiv idxEquiv1 _ _ fun j =>
      (congrArg (val_main_v41 (F := Ideal) x0 x1 x2) (eq_ix1 j)).trans (row_apply x0 x1 x2 (j 0) (hr _).1 (hr _).2)
  rw [val_main_v43_apply, val_main_v42_apply, val_main_cst_11_apply, val_main_cst_10_apply, hs]
  simp only [Ideal.hostDivf_def, Ideal.ofBits_def, Ideal.ofBits_zero_f32]

end Cert.ReferenceIdeal.Row

end
-- ==== Proof.LabelRange.lean ====
/-
  The label range, read out of the precondition.  The precondition is the conjunction of four "all" tests: the
  entries of `x` finite, the entries of the prototypes finite, every label `≥ 0`, every label `< 128` (signed
  compares against broadcast constants).  When it is true each conjunct is, an "all" that is true holds at every index,
  and so each label satisfies the two compares.
-/
import proofs.«406086_j51745765982761_2_alg».proof.Pre_finite_inputs
import proofs.«406086_j51745765982761_2_alg».proof.Proof.Gen.Pre_finite_inputs
import Idealize.ShloMosaic.Lib.ReduceAll
import Idealize.ShloMosaic.Lib.ValueIdx

noncomputable section

namespace Cert.Pre_finite_inputs.Range

open Cert.Pre_finite_inputs Idealize.ShloMosaic Idealize.ShloMosaic.ValueIdx

variable {F : FTy → Type} [FloatOps F]

instance : Subsingleton S_.Idx := ⟨fun a b => funext fun d => d.elim0⟩

/-- Under the precondition every label is `≥ 0` and `< 128` as a signed word. -/
theorem range_of_pre (x : FVec F S8192x256 .f32) (y : IVec S8192 32) (p : FVec F S128x256 .f32)
    (h : Cert.Pre_finite_inputs.fn (F := F) x y p = fun _ => 1#1) (n : Fin 8192) :
    IntOp.cmpi .sge (y (ix1 n)) 0#32 = 1#1 ∧ IntOp.cmpi .slt (y (ix1 n)) 128#32 = 1#1 := by
  have h' := congrFun h ix0
  dsimp only [Cert.Pre_finite_inputs.fn, Cert.Pre_finite_inputs.fn_part1] at h'
  obtain ⟨h12, hD⟩ := IntOp.andi_eq_one.mp (show IntOp.andi _ _ = 1#1 from h')
  obtain ⟨-, hC⟩ := IntOp.andi_eq_one.mp (show IntOp.andi _ _ = 1#1 from h12)
  exact ⟨Host.reduce_andi_all _ _ _ _ ix0 hC (ix1 n), Host.reduce_andi_all _ _ _ _ ix0 hD (ix1 n)⟩

end Cert.Pre_finite_inputs.Range

end
-- ==== Proof.lean ====
/-
  The five claims about the pair of programs, under the precondition "every entry of x and of the prototypes is finite and
  every label is in [0, 128)".

  Both programs compute the mean over 8192 rows of logistic(−(d₊ − d₋)/(d₊ + d₋)), where for a row d₊ is the squared
  distance to the prototype its label names and d₋ the smallest squared distance to any other prototype, the distances
  expanded as (|x|² − 2⟨x, p⟩) + |p|².  The kernel takes d₊ as a sum over the lanes masked by "lane number = label", walks
  the rows as four tiles of 2048 on a 2 x 2 grid, keeps one running sum per core, and its host lines add the two sums and
  divide by 8192; the reference gathers d₊ at the index pair (row, label), sums all rows at once and divides by 8192.
  With the label a lane number the masked sum is the gathered entry; the other operations agree term by term at the ideal
  values (the logistic function is 1/(1 + exp(−z)) there, a change of float format is the identity, a matmul into a zero
  accumulator is the plain sum), and sums over the extended reals regroup freely.  No finiteness is used.

  The three frames are the generated ones (the reference's is its generated run with the result dropped), the
  idealization rewrote nothing, and the algebraic claim states both runs' results as the same term.
-/
import proofs.«406086_j51745765982761_2_alg».proof.Defs
import proofs.«406086_j51745765982761_2_alg».proof.Proof.Gen.Kernel
import proofs.«406086_j51745765982761_2_alg».proof.Proof.Gen.Kernel.Skeleton
import proofs.«406086_j51745765982761_2_alg».proof.Proof.Gen.Kernel.Launch
import proofs.«406086_j51745765982761_2_alg».proof.Proof.Gen.Kernel.Points
import proofs.«406086_j51745765982761_2_alg».proof.Proof.Gen.Kernel.Frame
import proofs.«406086_j51745765982761_2_alg».proof.Proof.Gen.KernelIdeal
import proofs.«406086_j51745765982761_2_alg».proof.Proof.Gen.KernelIdeal.Skeleton
import proofs.«406086_j51745765982761_2_alg».proof.Proof.Gen.KernelIdeal.Launch
import proofs.«406086_j51745765982761_2_alg».proof.Proof.Gen.KernelIdeal.Points
import proofs.«406086_j51745765982761_2_alg».proof.Proof.Gen.KernelIdeal.Frame
import proofs.«406086_j51745765982761_2_alg».proof.Proof.Gen.ReferenceIdeal
import proofs.«406086_j51745765982761_2_alg».proof.Proof.Gen.ReferenceIdeal.Run
import proofs.«406086_j51745765982761_2_alg».proof.Proof.Gen.ReferenceIdeal.Read
import proofs.«406086_j51745765982761_2_alg».proof.Proof.Gen.Pre_finite_inputs
import proofs.«406086_j51745765982761_2_alg».proof.Proof.KernelResult
import proofs.«406086_j51745765982761_2_alg».proof.Proof.RefResult
import proofs.«406086_j51745765982761_2_alg».proof.Proof.LabelRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end at zero plus the sum of the 8192 row losses, over 8192.0:
    the kernel by its run read through the two per-core totals, the reference by its run read row by row, every label in
    range by the precondition. -/
theorem algebraic : Cert.algebraic_KernelIdeal_ReferenceIdeal := by
  intro m ρ m' ρ' hpre hagree
  refine ⟨fun c => Cert.KernelIdeal.Glvq.tailOf (Cert.KernelIdeal.Glvq.outArr m c),
    Cert.KernelIdeal.Glvq.run (F := Ideal) m ρ, ?_⟩
  refine (θ_run Cert.ReferenceIdeal.defs _ _).mono (fun _ h c => ⟨(h c).1.trans ?_, (h c).2⟩)
    (Cert.ReferenceIdeal.Value.run (F := Ideal) m' ρ')
  have hr := Cert.Pre_finite_inputs.Range.range_of_pre _ _ _ (hpre c)
  rw [Cert.ReferenceIdeal.Read.val_main_v43_eq, (hagree c).1, (hagree c).2.1, (hagree c).2.2,
    Cert.ReferenceIdeal.Row.result_eq _ _ _ hr]
  exact (Cert.KernelIdeal.Glvq.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
